-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S4096x512 : Shape := ⟨2, ![4096, 512]⟩
abbrev S512 : Shape := ⟨1, ![512]⟩
abbrev S512x64 : Shape := ⟨2, ![512, 64]⟩
abbrev S64 : Shape := ⟨1, ![64]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S512 : S_.BroadcastsInDim S512 (![] : Fin 0 → Fin S512.rank)
  reducesTo_S512_S_d0 : S512.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S32768x4096 .f32) (main_arg1 : FVec F S4096x512 .f32) (main_arg2 : FVec F S512 .f32) (main_arg3 : FVec F S512x64 .f32) (main_arg4 : FVec F S64 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x64 .f32 := Host.absf main_arg3
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_arg4 main_v13 main_v16
-- ==== Kernel.lean ====
abbrev S32768x4096 : Shape := ⟨2, ![32768, 4096]⟩
abbrev S4096x512 : Shape := ⟨2, ![4096, 512]⟩
abbrev S512 : Shape := ⟨1, ![512]⟩
abbrev S512x64 : Shape := ⟨2, ![512, 64]⟩
abbrev S64 : Shape := ⟨1, ![64]⟩
abbrev S1x512 : Shape := ⟨2, ![1, 512]⟩
abbrev S64x512 : Shape := ⟨2, ![64, 512]⟩
abbrev S1x64 : Shape := ⟨2, ![1, 64]⟩
abbrev S64x32768 : Shape := ⟨2, ![64, 32768]⟩
abbrev S1024x4096 : Shape := ⟨2, ![1024, 4096]⟩
abbrev S64x1024 : Shape := ⟨2, ![64, 1024]⟩
abbrev S1024x512 : Shape := ⟨2, ![1024, 512]⟩
abbrev S1024x64 : Shape := ⟨2, ![1024, 64]⟩
abbrev S32768x64 : Shape := ⟨2, ![32768, 64]⟩

abbrev nBuf : Space → Nat
  | .hbm => 10
  | .vmem => 8
  | .smem => 0
  | _ => 0

abbrev bufTy : (tb : Table) → Fin (tcTables nBuf tb) → BufTy
  | .hbm, ⟨0, _⟩ => ⟨S32768x4096, .f32⟩
  | .hbm, ⟨1, _⟩ => ⟨S4096x512, .f32⟩
  | .hbm, ⟨2, _⟩ => ⟨S512, .f32⟩
  | .hbm, ⟨3, _⟩ => ⟨S512x64, .f32⟩
  | .hbm, ⟨4, _⟩ => ⟨S64, .f32⟩
  | .hbm, ⟨5, _⟩ => ⟨S1x512, .f32⟩
  | .hbm, ⟨6, _⟩ => ⟨S64x512, .f32⟩
  | .hbm, ⟨7, _⟩ => ⟨S1x64, .f32⟩
  | .hbm, ⟨8, _⟩ => ⟨S64x32768, .f32⟩
  | .hbm, ⟨9, _⟩ => ⟨S32768x64, .f32⟩
  | .local _ .vmem, ⟨0, _⟩ => ⟨S1024x4096, .f32⟩
  | .local _ .vmem, ⟨1, _⟩ => ⟨S1024x4096, .f32⟩
  | .local _ .vmem, ⟨2, _⟩ => ⟨S4096x512, .f32⟩
  | .local _ .vmem, ⟨3, _⟩ => ⟨S1x512, .f32⟩
  | .local _ .vmem, ⟨4, _⟩ => ⟨S64x512, .f32⟩
  | .local _ .vmem, ⟨5, _⟩ => ⟨S1x64, .f32⟩
  | .local _ .vmem, ⟨6, _⟩ => ⟨S64x1024, .f32⟩
  | .local _ .vmem, ⟨7, _⟩ => ⟨S64x1024, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S512_S1x512 : S512.ShapeCasts S1x512
  transposes_S512x64_S64x512_1_0 : S512x64.Transposes [1, 0] S64x512
  shapeCasts_S64_S1x64 : S64.ShapeCasts S1x64
  inb_S1024x4096_S1024x4096_0_0 : ∀ a, (![0, 0] : Fin 2 → Nat) a + S1024x4096.size a ≤ S1024x4096.size a
  h_S1024x4096 : 0 < S1024x4096.numel
  inb_S4096x512_S4096x512_0_0 : ∀ a, (![0, 0] : Fin 2 → Nat) a + S4096x512.size a ≤ S4096x512.size a
  h_S4096x512 : 0 < S4096x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S64x512_S64x512_0_0 : ∀ a, (![0, 0] : Fin 2 → Nat) a + S64x512.size a ≤ S64x512.size a
  h_S64x512 : 0 < S64x512.numel
  shapeCasts_S64x512_S64x512 : S64x512.ShapeCasts S64x512
  transposes_S64x512_p1_0_S512x64 : S64x512.Transposes [1, 0] S512x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  transposes_S1024x64_p1_0_S64x1024 : S1024x64.Transposes [1, 0] S64x1024
  inb_S64x1024_S64x1024_0_0 : ∀ a, (![0, 0] : Fin 2 → Nat) a + S64x1024.size a ≤ S64x1024.size a
  h_S64x1024 : 0 < S64x1024.numel
  transposes_S64x32768_S32768x64_1_0 : S64x32768.Transposes [1, 0] S32768x64
  dot_S1024x4096_S4096x512_S1024x512_1_0_0_1_n_n_wf : DotDims.WF S1024x4096 S4096x512 S1024x512 [1] [0] [0] [1] [] []
  dot_S1024x512_S512x64_S1024x64_1_0_0_1_n_n_wf : DotDims.WF S1024x512 S512x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S32768x4096.size a
  hwx0_0 : ∀ i : grid0.Coords, EltTy.bits .f32 = 32 ∨ (Rect.block (s := S32768x4096) S1024x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .f32 = 32 ∨ (Rect.block (s := S4096x512) S4096x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x512.size a
  hwx0_3 : ∀ i : grid0.Coords, EltTy.bits .f32 = 32 ∨ (Rect.block (s := S64x512) S64x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x1024.size a ≤ S64x32768.size a
  hwx0_5 : ∀ i : grid0.Coords, EltTy.bits .f32 = 32 ∨ (Rect.block (s := S64x32768) S64x1024.size (cc0_transform_5 i) (hinb0_5 i)).WholeWords (EltTy.packing .f32)

variable [Facts₀]

def dot_S1024x4096_S4096x512_S1024x512_1_0_0_1_n_n : DotDims S1024x4096 S4096x512 S1024x512 where
  lhsContracting := [1]
  rhsContracting := [0]
  lhsNonContracting := [0]
  rhsNonContracting := [1]
  lhsBatch := []
  rhsBatch := []
  wf := dot_S1024x4096_S4096x512_S1024x512_1_0_0_1_n_n_wf
def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S64x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32768x4096 : Shape := ⟨2, ![32768, 4096]⟩
abbrev S4096x512 : Shape := ⟨2, ![4096, 512]⟩
abbrev S512 : Shape := ⟨1, ![512]⟩
abbrev S512x64 : Shape := ⟨2, ![512, 64]⟩
abbrev S64 : Shape := ⟨1, ![64]⟩
abbrev S32768x512 : Shape := ⟨2, ![32768, 512]⟩
abbrev S1x512 : Shape := ⟨2, ![1, 512]⟩
abbrev S_ : Shape := ⟨0, ![]⟩
abbrev S32768x64 : Shape := ⟨2, ![32768, 64]⟩
abbrev S1x64 : Shape := ⟨2, ![1, 64]⟩

abbrev nBuf : Space → Nat
  | .hbm => 16
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S4096x512, .f32⟩
  | .hbm, ⟨2, _⟩ => ⟨S512, .f32⟩
  | .hbm, ⟨3, _⟩ => ⟨S512x64, .f32⟩
  | .hbm, ⟨4, _⟩ => ⟨S64, .f32⟩
  | .hbm, ⟨5, _⟩ => ⟨S32768x512, .f32⟩
  | .hbm, ⟨6, _⟩ => ⟨S1x512, .f32⟩
  | .hbm, ⟨7, _⟩ => ⟨S32768x512, .f32⟩
  | .hbm, ⟨8, _⟩ => ⟨S32768x512, .f32⟩
  | .hbm, ⟨9, _⟩ => ⟨S_, .f32⟩
  | .hbm, ⟨10, _⟩ => ⟨S32768x512, .f32⟩
  | .hbm, ⟨11, _⟩ => ⟨S32768x512, .f32⟩
  | .hbm, ⟨12, _⟩ => ⟨S32768x64, .f32⟩
  | .hbm, ⟨13, _⟩ => ⟨S1x64, .f32⟩
  | .hbm, ⟨14, _⟩ => ⟨S32768x64, .f32⟩
  | .hbm, ⟨15, _⟩ => ⟨S32768x64, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S32768x512 : S_.BroadcastsInDim S32768x512 (![] : Fin 0 → Fin S32768x512.rank)
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  dot_S32768x4096_S4096x512_S32768x512_1_0_0_1_n_n_wf : DotDims.WF S32768x4096 S4096x512 S32768x512 [1] [0] [0] [1] [] []
  dot_S32768x512_S512x64_S32768x64_1_0_0_1_n_n_wf : DotDims.WF S32768x512 S512x64 S32768x64 [1] [0] [0] [1] [] []

variable [Facts₀]

def dot_S32768x4096_S4096x512_S32768x512_1_0_0_1_n_n : DotDims S32768x4096 S4096x512 S32768x512 where
  lhsContracting := [1]
  rhsContracting := [0]
  lhsNonContracting := [0]
  rhsNonContracting := [1]
  lhsBatch := []
  rhsBatch := []
  wf := dot_S32768x4096_S4096x512_S32768x512_1_0_0_1_n_n_wf
def dot_S32768x512_S512x64_S32768x64_1_0_0_1_n_n : DotDims S32768x512 S512x64 S32768x64 where
  lhsContracting := [1]
  rhsContracting := [0]
  lhsNonContracting := [0]
  rhsNonContracting := [1]
  lhsBatch := []
  rhsBatch := []
  wf := dot_S32768x512_S512x64_S32768x64_1_0_0_1_n_n_wf

class Facts : Prop extends Facts₀ where

variable [Facts]
-- ==== Proof.LibDense.lean ====
/-
  One dense layer of a multilayer perceptron, read one row at a time over the extended reals.

  A layer maps a row  v  of K numbers to the row  y_c = (Σ_k v_k · W_{k,c}) + b_c  of C numbers (`affine`), optionally
  followed by the rectifier  max(·, 0)  (`relu`). A product of an [R, K] array with a [K, C] array whose dimension
  numbers contract the left operand's axis 1 with the right operand's axis 0 (no batch axes) is, at the entry (r, c),
  the sum over k of  lhs(r, k) · rhs(k, c) : this holds for the matrix unit's product into a zero accumulator and for the
  host's general product alike (`matmul_zero_plain_apply`, `dotGeneral_plain_apply`), because both are the same sum over
  the one-axis contraction index, re-indexed here by its one coordinate (`contr_sum`). So a whole layer as either
  program spells it — the product, the bias row added to every row, the maximum with zero — is `relu (affine W b row)`
  at every entry (`kernel_affine_apply` then `kernel_relu_apply`; `host_affine_apply` then `host_relu_apply`), whatever the number of rows: a layer acts on each row by
  itself.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- The affine map of one row:  y_c = (Σ_k v_k · W_{k,c}) + b_c . -/
def affine {K C : ℕ} (W : FVec Ideal ⟨2, ![K, C]⟩ .f32) (b : FVec Ideal ⟨1, ![C]⟩ .f32) (v : Fin K → EReal) :
    Fin C → EReal :=
  fun c => (∑ k : Fin K, v k * W (ix2 k c)) + b (ix1 c)

/-- The rectifier on a row:  max(y_c, 0) . -/
def relu {C : ℕ} (v : Fin C → EReal) : Fin C → EReal := fun c => max (v c) 0

/-- A coordinate of an index does not depend on how its axis number is written. -/
private theorem idx_val_congr {s : Shape} (j : s.Idx) (p q : Nat) (hp : p < s.rank) (hq : q < s.rank) (h : p = q) :
    (j ⟨p, hp⟩).val = (j ⟨q, hq⟩).val := by subst h; rfl

/-- With no batch axes and the left operand's axis 0 its only free axis, the left index's row is the result's row. -/
private theorem lhsIdx_row {R K C : ℕ} (d : DotDims ⟨2, ![R, K]⟩ ⟨2, ![K, C]⟩ ⟨2, ![R, C]⟩)
    (h3 : d.lhsNonContracting = [0]) (h5 : d.lhsBatch = [])
    (j : (⟨2, ![R, C]⟩ : Shape).Idx) (k : d.contr.Idx) : (d.lhsIdx j k 0).val = (j 0).val := by
  have hb : (0 : Fin 2) ∉ d.lhsBatch := by rw [h5]; exact List.not_mem_nil
  have hn : (0 : Fin 2) ∈ d.lhsNonContracting := by rw [h3]; exact List.mem_singleton.mpr rfl
  unfold DotDims.lhsIdx
  rw [dif_neg hb, dif_pos hn]
  simp only [Fin.val_cast]
  exact idx_val_congr j _ _ _ _ (by simp [h3, h5])

/-- With no batch axes, one free axis on the left and the right operand's axis 1 its only free axis, the right index's
    column is the result's column. -/
private theorem rhsIdx_col {R K C : ℕ} (d : DotDims ⟨2, ![R, K]⟩ ⟨2, ![K, C]⟩ ⟨2, ![R, C]⟩)
    (h3 : d.lhsNonContracting = [0]) (h4 : d.rhsNonContracting = [1]) (h5 : d.lhsBatch = []) (h6 : d.rhsBatch = [])
    (j : (⟨2, ![R, C]⟩ : Shape).Idx) (k : d.contr.Idx) : (d.rhsIdx j k 1).val = (j 1).val := by
  have hb : (1 : Fin 2) ∉ d.rhsBatch := by rw [h6]; exact List.not_mem_nil
  have hn : (1 : Fin 2) ∈ d.rhsNonContracting := by rw [h4]; exact List.mem_singleton.mpr rfl
  unfold DotDims.rhsIdx
  rw [dif_neg hb, dif_pos hn]
  simp only [Fin.val_cast]
  exact idx_val_congr j _ _ _ _ (by simp [h3, h4, h5])

/-- The sum over a one-axis contraction index of a plain [R,K] × [K,C] product, as the sum over k of
    lhs(r, k) · rhs(k, c). -/
theorem contr_sum {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (lhs : (⟨2, ![R, K]⟩ : Shape).Idx → EReal) (rhs : (⟨2, ![K, C]⟩ : Shape).Idx → EReal) (r : Fin R) (c : Fin C) :
    ∑ k : d.contr.Idx, lhs (d.lhsIdx (ix2 r c) k) * rhs (d.rhsIdx (ix2 r c) k)
      = ∑ k : Fin K, lhs (ix2 r k) * rhs (ix2 k c) := by
  -- the contraction index has one axis, of extent K
  have hr : d.contr.rank = 1 := by rw [d.rank_contr, h1]; rfl
  have hs : d.contr.size ⟨0, by omega⟩ = K := by
    have h := d.size_contr 0 (by rw [h1]; exact Nat.one_pos)
    rw [h]
    simp [h1]
  -- re-index the sum by that axis's one coordinate
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  -- the left operand is read at (r, k): its row from the result, its column from the contraction
  have el : d.lhsIdx (ix2 r c) ((contrEquiv1 d K hr hs).symm k) = ix2 r k := by
    funext a
    match a with
    | ⟨0, _⟩ => exact Fin.ext (lhsIdx_row d h3 h5 (ix2 r c) _)
    | ⟨1, _⟩ => exact Fin.ext ((d.lhsIdx_val_of_single h1 (ix2 r c) _).trans hk)
  -- the right operand is read at (k, c): its row from the contraction, its column from the result
  have er : d.rhsIdx (ix2 r c) ((contrEquiv1 d K hr hs).symm k) = ix2 k c := by
    funext a
    match a with
    | ⟨0, _⟩ => exact Fin.ext ((d.rhsIdx_val_of_single h2 (ix2 r c) _).trans hk)
    | ⟨1, _⟩ => exact Fin.ext (rhsIdx_col d h3 h4 h5 h6 (ix2 r c) _)
  rw [el, er]

/-- The matrix unit's product into a zero accumulator, at (r, c). -/
theorem matmul_zero_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    matmul d prec lhs rhs (constant ⟨2, ![R, C]⟩ .f32 0x00000000#32) (ix2 r c)
      = ∑ k : Fin K, lhs (ix2 r k) * rhs (ix2 k c) := by
  -- the product into zeros is the sum over the contraction index, which is the sum over k
  show FloatOps.matmul d prec lhs rhs (constant ⟨2, ![R, C]⟩ .f32 0x00000000#32) (ix2 r c) = _
  rw [Ideal.matmul_constant_zero_apply]
  exact contr_sum d h1 h2 h3 h4 h5 h6 lhs rhs r c

/-- The host's general product, at (r, c). -/
theorem dotGeneral_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    Host.dotGeneral d prec lhs rhs (ix2 r c) = ∑ k : Fin K, lhs (ix2 r k) * rhs (ix2 k c) := by
  -- the general product is the same sum over the contraction index
  simp only [Host.dotGeneral]
  rw [Ideal.dotGeneral_apply]
  exact contr_sum d h1 h2 h3 h4 h5 h6 lhs rhs r c

/-- A [C] row viewed as a [1, C] array and stretched over R rows reads, at (r, c), the row's entry c. -/
private theorem bias_keepdims_apply {R C : ℕ} {α : Type}
    (hsc : (⟨1, ![C]⟩ : Shape).ShapeCasts ⟨2, ![1, C]⟩) (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) := by
  -- the stretch reads the [1, C] array at (0, c); when C = 1 the column c is itself 0
  refine (broadcastTo_apply _ hbc (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the added unit axis reads the row at its trailing coordinate
  · refine (shapeCast_addUnit_apply ![C] b hsc (ix2 (0 : Fin 1) c)).trans ?_
    exact congrArg b (funext fun a => match a with | ⟨0, _⟩ => rfl)

/-- A layer before its rectifier as the kernel spells it — both operands narrowed to bf16 (the identity on the
    extended reals), the product into zeros, the bias as a [1, C] row stretched over the R rows and added — at (r, c). -/
theorem kernel_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bits .bf16 < FTy.bits .f32)
    (hsc : (⟨1, ![C]⟩ : Shape).ShapeCasts ⟨2, ![1, C]⟩) (hbc : (⟨2, ![1, C]⟩ : Shape).Broadcasts ⟨2, ![R, C]⟩)
    (X : FVec Ideal ⟨2, ![R, K]⟩ .f32) (W : FVec Ideal ⟨2, ![K, C]⟩ .f32) (b : FVec Ideal ⟨1, ![C]⟩ .f32)
    (r : Fin R) (c : Fin C) :
    addf (matmul d none (truncf .bf16 X hlt) (truncf .bf16 W hlt) (constant ⟨2, ![R, C]⟩ .f32 0x00000000#32))
        (broadcastTo ⟨2, ![R, C]⟩ (shapeCast ⟨2, ![1, C]⟩ b hsc) hbc) (ix2 r c)
      = affine W b (fun k => X (ix2 r k)) c := by
  -- the sum at (r, c) plus the bias entry c; narrowing to bf16 is the identity on the extended reals
  rw [addf_apply, matmul_zero_plain_apply d h1 h2 h3 h4 h5 h6, bias_keepdims_apply hsc hbc b r c]
  rfl

/-- The kernel's rectifier — the maximum with a splat of the zero word — at an index. -/
theorem kernel_relu_apply {s : Shape} (v : FVec Ideal s .f32) (i : s.Idx) :
    maximumf v (broadcast s (Scalar.ofBits (F := Ideal) .f32 0x00000000#32)) i = max (v i) 0 := by
  -- the splat reads the zero word everywhere, and the zero word is the number 0
  rw [maximumf_apply, broadcast_apply]
  show max (v i) (Ideal.ofBits .f32 0x00000000#32) = _
  rw [Ideal.ofBits_zero_f32]

/-- A [C] row laid out as a [1, C] array on its axis 1 and then over R rows on both axes reads, at (r, c), the row's
    entry c. -/
private theorem bias_inDim_apply {R C : ℕ} {α : Type}
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) := by
  -- the outer layout reads the [1, C] array at (0, c); when C = 1 the column c is itself 0
  refine (broadcastInDim_apply ![0, 1] hb2 _ (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the inner layout reads the row at the [1, C] array's coordinate on axis 1
  · refine broadcastInDim_apply ![1] hb1 b (ix2 (0 : Fin 1) c) (ix1 c) fun a => ?_
    match a with
    | ⟨0, _⟩ =>
      show c.val = if C = 1 then 0 else c.val
      split
      · have := c.isLt; omega
      · rfl

/-- A layer before its rectifier as the host spells it — the general product, the bias laid out as a [1, C] row and
    then over the R rows, added — at (r, c). -/
theorem host_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (X : FVec Ideal ⟨2, ![R, K]⟩ .f32) (W : FVec Ideal ⟨2, ![K, C]⟩ .f32) (b : FVec Ideal ⟨1, ![C]⟩ .f32)
    (r : Fin R) (c : Fin C) :
    addf (Host.dotGeneral d none X W)
        (broadcastInDim ⟨2, ![R, C]⟩ ![0, 1] hb2 (broadcastInDim ⟨2, ![1, C]⟩ ![1] hb1 b)) (ix2 r c)
      = affine W b (fun k => X (ix2 r k)) c := by
  -- the sum at (r, c) plus the bias entry c
  rw [addf_apply, dotGeneral_plain_apply d h1 h2 h3 h4 h5 h6, bias_inDim_apply hb1 hb2 b r c]
  rfl

/-- The host's rectifier — the maximum with the zero scalar laid out over the array — at an index. -/
theorem host_relu_apply {s : Shape} (hb0 : (⟨0, ![]⟩ : Shape).BroadcastsInDim s (![] : Fin 0 → Fin s.rank))
    (v : FVec Ideal s .f32) (i : s.Idx) :
    maximumf v (broadcastInDim s ![] hb0 (constant (F := Ideal) ⟨0, ![]⟩ .f32 0x00000000#32)) i = max (v i) 0 := by
  -- the scalar laid out over the array reads its one entry everywhere: the zero word, which is the number 0
  rw [maximumf_apply]
  have e : broadcastInDim s ![] hb0 (constant (F := Ideal) ⟨0, ![]⟩ .f32 0x00000000#32) i
      = constant (F := Ideal) ⟨0, ![]⟩ .f32 0x00000000#32 ix0 :=
    broadcastInDim_apply ![] hb0 _ i ix0 fun a => a.elim0
  rw [e, constant_apply, Ideal.ofBits_zero_f32]

end Cert.Dense

end
-- ==== Proof.RouterSpec.lean ====
/-
  The router's scores, one token at a time, over the extended reals.

  A token's row  v  of 4096 numbers goes through a hidden layer of 512 units and an output layer of 64:
      h_j = max((Σ_k v_k · W1_{k,j}) + b1_j, 0),      s_g = (Σ_j h_j · W2_{j,g}) + b2_g .
  Both programs compute exactly this for every token; they differ only in how the arrays are laid out (the kernel is
  handed W2 transposed and the biases as one-row matrices, works on 1024 tokens at a time, and writes its result
  transposed). Each token's scores depend on that token's row alone, which is why any tiling of the tokens gives the
  same array. The two sums are over the same index sets in both programs, so no rearrangement of a sum is needed and
  the inputs' finiteness plays no part.
-/
import proofs.«109015_g8263517077508_cont_9to1_m_1080_10_alg».proof.Proof.LibDense

noncomputable section

namespace Cert.Router

open Idealize.ShloMosaic Idealize.ShloMosaic.ValueIdx Cert.Dense

/-- The 64 scores of token `R`: the output layer of the rectified hidden layer of the token's row. -/
def scores (x : FVec Ideal ⟨2, ![32768, 4096]⟩ .f32) (W1 : FVec Ideal ⟨2, ![4096, 512]⟩ .f32) (b1 : FVec Ideal ⟨1, ![512]⟩ .f32)
    (W2 : FVec Ideal ⟨2, ![512, 64]⟩ .f32) (b2 : FVec Ideal ⟨1, ![64]⟩ .f32) (R : Fin 32768) : Fin 64 → EReal :=
  affine W2 b2 (relu (affine W1 b1 fun k => x (ix2 R k)))

/-- The result array, tokens by scores. -/
def scoresArr (x : FVec Ideal ⟨2, ![32768, 4096]⟩ .f32) (W1 : FVec Ideal ⟨2, ![4096, 512]⟩ .f32) (b1 : FVec Ideal ⟨1, ![512]⟩ .f32)
    (W2 : FVec Ideal ⟨2, ![512, 64]⟩ .f32) (b2 : FVec Ideal ⟨1, ![64]⟩ .f32) : FVec Ideal ⟨2, ![32768, 64]⟩ .f32 :=
  fun i => scores x W1 b1 W2 b2 (i 0) (i 1)

/-- The same numbers laid out scores by tokens: what the kernel's region writes before the final transposition. -/
def scoresArrT (x : FVec Ideal ⟨2, ![32768, 4096]⟩ .f32) (W1 : FVec Ideal ⟨2, ![4096, 512]⟩ .f32) (b1 : FVec Ideal ⟨1, ![512]⟩ .f32)
    (W2 : FVec Ideal ⟨2, ![512, 64]⟩ .f32) (b2 : FVec Ideal ⟨1, ![64]⟩ .f32) : FVec Ideal ⟨2, ![64, 32768]⟩ .f32 :=
  fun i => scores x W1 b1 W2 b2 (i 1) (i 0)

end Cert.Router

end
-- ==== Proof.KernelPayload.lean ====
/-
  What the kernel body stores, read at one entry.

  The body loads a block of 1024 token rows, the whole of W1, the bias b1 as a one-row matrix, W2 TRANSPOSED (64 by
  512) and the bias b2 as a one-row matrix; it stores, transposed, the 1024 by 64 matrix of the output layer of the
  rectified hidden layer. So the stored block at (g, r) is score g of the token in the block's row r: the outer
  transposition swaps (g, r) back to (r, g); the second product into zeros is the sum over the hidden units j of the
  rectified hidden value of row r times the transposed W2 block at (j, g), which is the loaded block at (g, j); the
  bias rows are stretched over the 1024 rows and read at their column.
-/
import proofs.«109015_g8263517077508_cont_9to1_m_1080_10_alg».proof.Proof.Gen.KernelIdeal.Skeleton
import proofs.«109015_g8263517077508_cont_9to1_m_1080_10_alg».proof.Proof.RouterSpec

noncomputable section

namespace Cert.KernelIdeal.Payload

open Idealize.ShloMosaic Idealize.ShloMosaic.ValueIdx Cert.KernelIdeal Cert.KernelIdeal.Gen Cert.Dense Cert.Router

/-- The hidden layer before its rectifier as the body spells it, at (r, j): the product of the token block with W1 into
    zeros, plus the one-row bias stretched over the rows. -/
theorem hidden_apply (v0 : FVec Ideal S1024x4096 .f32) (v1 : FVec Ideal S4096x512 .f32) (v3 : FVec Ideal S1x512 .f32)
    (r : Fin 1024) (j : Fin 512) :
    addf (matmul dot_S1024x4096_S4096x512_S1024x512_1_0_0_1_n_n none v0 v1 (constant S1024x512 .f32 0x00000000#32))
        (broadcastTo S1024x512 v3 broadcasts_S1x512_S1024x512) (ix2 r j)
      = affine v1 (fun i => v3 (ix2 (0 : Fin 1) (i 0))) (fun k => v0 (ix2 r k)) j := by
  rw [addf_apply, matmul_zero_plain_apply dot_S1024x4096_S4096x512_S1024x512_1_0_0_1_n_n rfl rfl rfl rfl rfl rfl,
    broadcastTo_1b_ab_apply]
  rfl

/-- The stored block at (g, r), for any token rows `xr`, weights and biases that the loaded blocks hold where the
    body reads them: score g of the token whose row is the block's row r. -/
theorem pay_apply (v0 : FVec Ideal S1024x4096 .f32) (v1 : FVec Ideal S4096x512 .f32) (v3 : FVec Ideal S1x512 .f32)
    (v9 : FVec Ideal S64x512 .f32) (v13 : FVec Ideal S1x64 .f32) (g : Fin 64) (r : Fin 1024) :
    k0_pay1 (F := Ideal) v0 v1 v3 v9 v13 (ix2 g r)
      = affine (K := 512) (C := 64) (fun i => v9 (ix2 (i 1) (i 0))) (fun i => v13 (ix2 (0 : Fin 1) (i 0)))
          (relu (affine v1 (fun i => v3 (ix2 (0 : Fin 1) (i 0))) fun k => v0 (ix2 r k))) g := by
  unfold k0_pay1
  -- the three shape casts keep the shape: they are the identity
  rw [shapeCast_self v3, shapeCast_self v9, shapeCast_self v13]
  -- the outer transposition, then the output layer's sum and bias at (r, g)
  refine (transpose_ix2_apply _ transposes_S1024x64_p1_0_S64x1024 g r).trans ?_
  rw [addf_apply, matmul_zero_plain_apply dot_S1024x512_S512x64_S1024x64_1_0_0_1_n_n rfl rfl rfl rfl rfl rfl,
    broadcastTo_1b_ab_apply]
  show (∑ j : Fin 512, _ * _) + _ = (∑ j : Fin 512, _ * _) + _
  congr 1
  refine Finset.sum_congr rfl fun j _ => ?_
  -- the rectified hidden value of row r at unit j, times the transposed W2 block at (j, g)
  rw [kernel_relu_apply, hidden_apply, transpose_ix2_apply]
  rfl

end Cert.KernelIdeal.Payload

end
-- ==== Proof.KernelValue.lean ====
/-
  The idealized kernel's result array is the array of scores.

  The region runs over 32 grid points. Point t stages rows 1024·t … 1024·t + 1023 of x, and the whole of W1, of b1 as a
  one-row matrix, of W2 transposed and of b2 as a one-row matrix (the last three are written by host operations before the
  region: a reshape, a transposition, a reshape); it writes back columns 1024·t … 1024·t + 1023 of a 64 by 32768 array.
  By the payload lemma the entry (g, r) of what point t writes back is score g of token 1024·t + r, so every block is a
  restriction of ONE array, the scores laid out scores by tokens; the 32 blocks cover that array (column n lies in the
  block of point n / 1024), so the region leaves exactly that array. The one host operation after the region transposes
  it into tokens by scores.
-/
import proofs.«109015_g8263517077508_cont_9to1_m_1080_10_alg».proof.Proof.Gen.KernelIdeal.Frame
import proofs.«109015_g8263517077508_cont_9to1_m_1080_10_alg».proof.Proof.KernelPayload
import Idealize.ShloMosaic.Lib.StableHlo.Run
import Idealize.ShloMosaic.Lib.Pipeline.Value

set_option maxRecDepth 16384

noncomputable section

namespace Cert.KernelIdeal.RegionValue

open Idealize.ShloMosaic Idealize.ShloMosaic.TcCoe Idealize.SL.Sem Idealize.ShloMosaic.StableHlo
open Idealize.ShloMosaic.ValueIdx Cert.KernelIdeal Cert.KernelIdeal.Gen Cert.KernelIdeal.Payload Cert.Dense Cert.Router
open Idealize.ShloMosaic.Pipeline (Dat)

variable (m : (ℓ : Loc nD τ sig) → Buf (Elt Ideal) ℓ) (ρ : Dev nD → PrngReg)

/-! ## The argument arrays as launched, and the blocks a point stages, under their literal types -/

abbrev xArr (c : Dev nD) : FVec Ideal S32768x4096 .f32 := m ((c : Thread nD τ).loc main_arg0)
abbrev w1Arr (c : Dev nD) : FVec Ideal S4096x512 .f32 := m ((c : Thread nD τ).loc main_arg1)
abbrev b1Arr (c : Dev nD) : FVec Ideal S512 .f32 := m ((c : Thread nD τ).loc main_arg2)
abbrev w2Arr (c : Dev nD) : FVec Ideal S512x64 .f32 := m ((c : Thread nD τ).loc main_arg3)
abbrev b2Arr (c : Dev nD) : FVec Ideal S64 .f32 := m ((c : Thread nD τ).loc main_arg4)

abbrev xBlk (c : Dev nD) (t : Fin cfg0.N) : FVec Ideal S1024x4096 .f32 := iblk m c 0 t
abbrev w1Blk (c : Dev nD) (t : Fin cfg0.N) : FVec Ideal S4096x512 .f32 := iblk m c 1 t
abbrev b1Blk (c : Dev nD) (t : Fin cfg0.N) : FVec Ideal S1x512 .f32 := iblk m c 2 t
abbrev w2Blk (c : Dev nD) (t : Fin cfg0.N) : FVec Ideal S64x512 .f32 := iblk m c 3 t
abbrev b2Blk (c : Dev nD) (t : Fin cfg0.N) : FVec Ideal S1x64 .f32 := iblk m c 4 t

/-! ## What the host operations before the region write -/

/-- b1 as a one-row matrix. -/
theorem V_v0 (c : Dev nD) : (V m c main_v0 : FVec Ideal S1x512 .f32) = shapeCast S1x512 (b1Arr m c) shapeCasts_S512_S1x512 := by
  show StableHlo.after hostOps0 (fun b => m (c, b)) (Proc.devRef .tc main_v0) = _
  after_results <;> rfl

/-- W2 transposed. -/
theorem V_v1 (c : Dev nD) : (V m c main_v1 : FVec Ideal S64x512 .f32) = transpose S64x512 [1, 0] (w2Arr m c) transposes_S512x64_S64x512_1_0 := by
  show StableHlo.after hostOps0 (fun b => m (c, b)) (Proc.devRef .tc main_v1) = _
  after_results <;> rfl

/-- b2 as a one-row matrix. -/
theorem V_v2 (c : Dev nD) : (V m c main_v2 : FVec Ideal S1x64 .f32) = shapeCast S1x64 (b2Arr m c) shapeCasts_S64_S1x64 := by
  show StableHlo.after hostOps0 (fun b => m (c, b)) (Proc.devRef .tc main_v2) = _
  after_results <;> rfl

/-! ## The printed index maps, decided over the 32 points -/

/-- The token block and the output block move together (the output along its axis 1); every other block index is 0. -/
theorem idx_facts : ∀ t : Fin cfg0.N,
    win0_0.index t (0 : Fin 2) = win0_5.index t (1 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) ≤ 31 :=
  (by decide +kernel : ∀ t : Fin grid0.N, _)

/-- Every one of the 32 column blocks of the output is some point's. -/
theorem idx_onto : ∀ q : Fin 32, ∃ t : Fin cfg0.N, win0_5.index t = ![0, q.val] :=
  (by decide +kernel : ∀ q : Fin 32, ∃ t : Fin grid0.N, win0_5.index t = ![0, q.val])

/-! ## The staged blocks, read off the arrays -/

/-- Row r of point t's token block is the row of x whose number is the output block's column index times 1024, plus r. -/
theorem xBlk_apply (c : Dev nD) (t : Fin cfg0.N) (r : Fin 1024) (k : Fin 4096) (R : Fin 32768)
    (hR : R.val = win0_5.index t (1 : Fin 2) * 1024 + r.val) :
    xBlk m c t (ix2 r k) = xArr m c (ix2 R k) := by
  obtain ⟨e0, e1, -⟩ := idx_facts t
  show V m c main_arg0 (((cfg0.win 0).blk t).view.emb (ix2 r k)) = _
  rw [V_main_arg0]
  refine congrArg (xArr m c) ?_
  funext a; apply Fin.ext
  match a with
  | ⟨0, _⟩ => show win0_0.index t (0 : Fin 2) * 1024 + 1 * r.val = R.val; omega
  | ⟨1, _⟩ => show win0_0.index t (1 : Fin 2) * 4096 + 1 * k.val = k.val; omega

/-- The W1 block is the whole of W1. -/
theorem w1Blk_eq (c : Dev nD) (t : Fin cfg0.N) : w1Blk m c t = w1Arr m c := by
  obtain ⟨-, -, e0, e1, -⟩ := idx_facts t
  funext y
  show V m c main_arg1 (((cfg0.win 1).blk t).view.emb y) = _
  rw [V_main_arg1]
  refine congrArg (w1Arr m c) ?_
  funext a; apply Fin.ext
  match a with
  | ⟨0, _⟩ => show win0_1.index t (0 : Fin 2) * 4096 + 1 * (y 0).val = (y 0).val; omega
  | ⟨1, _⟩ => show win0_1.index t (1 : Fin 2) * 512 + 1 * (y 1).val = (y 1).val; omega

/-- The b1 block is b1 as a one-row matrix. -/
theorem b1Blk_eq (c : Dev nD) (t : Fin cfg0.N) : b1Blk m c t = shapeCast S1x512 (b1Arr m c) shapeCasts_S512_S1x512 := by
  obtain ⟨-, -, -, -, e0, e1, -⟩ := idx_facts t
  funext y
  show V m c main_v0 (((cfg0.win 2).blk t).view.emb y) = _
  rw [V_v0]
  refine congrArg (shapeCast S1x512 (b1Arr m c) shapeCasts_S512_S1x512) ?_
  funext a; apply Fin.ext
  match a with
  | ⟨0, _⟩ => show win0_2.index t (0 : Fin 2) * 1 + 1 * (y 0).val = (y 0).val; omega
  | ⟨1, _⟩ => show win0_2.index t (1 : Fin 2) * 512 + 1 * (y 1).val = (y 1).val; omega

/-- The W2 block is W2 transposed. -/
theorem w2Blk_eq (c : Dev nD) (t : Fin cfg0.N) : w2Blk m c t = transpose S64x512 [1, 0] (w2Arr m c) transposes_S512x64_S64x512_1_0 := by
  obtain ⟨-, -, -, -, -, -, e0, e1, -⟩ := idx_facts t
  funext y
  show V m c main_v1 (((cfg0.win 3).blk t).view.emb y) = _
  rw [V_v1]
  refine congrArg (transpose S64x512 [1, 0] (w2Arr m c) transposes_S512x64_S64x512_1_0) ?_
  funext a; apply Fin.ext
  match a with
  | ⟨0, _⟩ => show win0_3.index t (0 : Fin 2) * 64 + 1 * (y 0).val = (y 0).val; omega
  | ⟨1, _⟩ => show win0_3.index t (1 : Fin 2) * 512 + 1 * (y 1).val = (y 1).val; omega

/-- The b2 block is b2 as a one-row matrix. -/
theorem b2Blk_eq (c : Dev nD) (t : Fin cfg0.N) : b2Blk m c t = shapeCast S1x64 (b2Arr m c) shapeCasts_S64_S1x64 := by
  obtain ⟨-, -, -, -, -, -, -, -, e0, e1, -⟩ := idx_facts t
  funext y
  show V m c main_v2 (((cfg0.win 4).blk t).view.emb y) = _
  rw [V_v2]
  refine congrArg (shapeCast S1x64 (b2Arr m c) shapeCasts_S64_S1x64) ?_
  funext a; apply Fin.ext
  match a with
  | ⟨0, _⟩ => show win0_4.index t (0 : Fin 2) * 1 + 1 * (y 0).val = (y 0).val; omega
  | ⟨1, _⟩ => show win0_4.index t (1 : Fin 2) * 64 + 1 * (y 1).val = (y 1).val; omega

/-! ## One point's stored block is a block of the scores -/

/-- The stored entry (g, r) of point t, over the staged blocks, is score g of token R when R is the token of the
    block's row r. -/
theorem stored_apply (c : Dev nD) (t : Fin cfg0.N) (g : Fin 64) (r : Fin 1024) (R : Fin 32768)
    (hR : R.val = win0_5.index t (1 : Fin 2) * 1024 + r.val) :
    k0_pay1 (F := Ideal) (xBlk m c t) (w1Blk m c t) (b1Blk m c t) (w2Blk m c t) (b2Blk m c t) (ix2 g r)
      = scores (xArr m c) (w1Arr m c) (b1Arr m c) (w2Arr m c) (b2Arr m c) R g := by
  rw [pay_apply, w1Blk_eq, b1Blk_eq, w2Blk_eq, b2Blk_eq]
  unfold scores
  -- the transposed W2 block read transposed is W2; the one-row biases read at their column are the biases
  have hW2 : (fun i : (⟨2, ![512, 64]⟩ : Shape).Idx => transpose S64x512 [1, 0] (w2Arr m c) transposes_S512x64_S64x512_1_0 (ix2 (i 1) (i 0))) = w2Arr m c := by
    funext i
    exact (transpose_ix2_apply (w2Arr m c) transposes_S512x64_S64x512_1_0 (i 1) (i 0)).trans
      (congrArg (w2Arr m c) (eq_ix2 i).symm)
  have hb2 : (fun i : (⟨1, ![64]⟩ : Shape).Idx => shapeCast S1x64 (b2Arr m c) shapeCasts_S64_S1x64 (ix2 (0 : Fin 1) (i 0))) = b2Arr m c := by
    funext i
    exact (shapeCast_a_1a_apply (b2Arr m c) shapeCasts_S64_S1x64 (0 : Fin 1) (i 0)).trans
      (congrArg (b2Arr m c) (eq_ix1 i).symm)
  have hb1 : (fun i : (⟨1, ![512]⟩ : Shape).Idx => shapeCast S1x512 (b1Arr m c) shapeCasts_S512_S1x512 (ix2 (0 : Fin 1) (i 0))) = b1Arr m c := by
    funext i
    exact (shapeCast_a_1a_apply (b1Arr m c) shapeCasts_S512_S1x512 (0 : Fin 1) (i 0)).trans
      (congrArg (b1Arr m c) (eq_ix1 i).symm)
  have hx : (fun k : Fin 4096 => xBlk m c t (ix2 r k)) = fun k => xArr m c (ix2 R k) :=
    funext fun k => xBlk_apply m c t r k R hR
  rw [hW2, hb2, hb1, hx]

/-- The zero offsets of a whole-block access, however they are spelt. -/
theorem hz : (![0, 0] : Fin 2 → Nat) = fun _ => 0 := funext fun a => by fin_cases a <;> rfl

/-- WHAT POINT t WRITES BACK is block t of the scores laid out scores by tokens. -/
theorem flushed_eq (c : Dev nD) (t : Fin cfg0.N) :
    (dats m 0 c).flushed 5 t = ((cfg0.win 5).blk t).view.read (Elt Ideal)
      (scoresArrT (xArr m c) (w1Arr m c) (b1Arr m c) (w2Arr m c) (b2Arr m c)) := by
  show (cfg0.win 5).cut (grid0.coords t) ((dats m 0 c).after 5 t) = _
  rw [after0_5]
  unfold out0_5
  rw [View.canon_unit_zero hz]
  simp only [View.ld_unit_zero (S := S1024x4096) hz, View.ld_unit_zero (S := S4096x512) hz,
    View.ld_unit_zero (S := S1x512) hz, View.ld_unit_zero (S := S64x512) hz, View.ld_unit_zero (S := S1x64) hz]
  obtain ⟨-, -, -, -, -, -, -, -, -, -, e50, e51⟩ := idx_facts t
  funext j
  obtain ⟨g, r, rfl⟩ : ∃ (g : Fin 64) (r : Fin 1024), j = ix2 g r := ⟨j 0, j 1, eq_ix2 j⟩
  have hlt : win0_5.index t (1 : Fin 2) * 1024 + r.val < 32768 := by
    have hr : r.val < 1024 := r.isLt
    omega
  show k0_pay1 (F := Ideal) (xBlk m c t) (w1Blk m c t) (b1Blk m c t) (w2Blk m c t) (b2Blk m c t) (ix2 g r)
    = scoresArrT (xArr m c) (w1Arr m c) (b1Arr m c) (w2Arr m c) (b2Arr m c) (((cfg0.win 5).blk t).view.emb (ix2 g r))
  rw [stored_apply m c t g r ⟨win0_5.index t (1 : Fin 2) * 1024 + r.val, hlt⟩ rfl]
  unfold scoresArrT
  have h0 : ((cfg0.win 5).blk t).view.emb (ix2 g r) 0 = g := by
    apply Fin.ext
    show win0_5.index t (0 : Fin 2) * 64 + 1 * g.val = g.val
    omega
  have h1 : ((cfg0.win 5).blk t).view.emb (ix2 g r) 1 = ⟨win0_5.index t (1 : Fin 2) * 1024 + r.val, hlt⟩ := by
    apply Fin.ext
    show win0_5.index t (1 : Fin 2) * 1024 + 1 * r.val = win0_5.index t (1 : Fin 2) * 1024 + r.val
    omega
  rw [h0, h1]
  rfl

/-! ## The blocks cover the array -/

/-- An index of the 64 by 32768 array is in point t's block iff each coordinate is in the block's range on its axis. -/
theorem mem_blk (t : Fin cfg0.N) (i : S64x32768.Idx) :
    i ∈ ((cfg0.win 5).blk t).view.set ↔ ∀ a : Fin 2, win0_5.index t a * S64x1024.size a ≤ (i a).val ∧ (i a).val < win0_5.index t a * S64x1024.size a + S64x1024.size a := by
  show i ∈ ((View.whole main_v3).slice (win0_5.rect t)).set ↔ _
  rw [View.set_slice_whole, Rect.mem_set_unit]
  exact Iff.rfl

/-- Column n of the array lies in the block of the point whose column block is n / 1024. -/
theorem covered (i : S64x32768.Idx) : ∃ t : Fin cfg0.N, (cfg0.win 5).flush t = true ∧ i ∈ ((cfg0.win 5).blk t).view.set := by
  have hi0 : (i 0).val < 64 := (i 0).isLt
  have hi1 : (i 1).val < 32768 := (i 1).isLt
  obtain ⟨t, ht⟩ := idx_onto ⟨(i 1).val / 1024, by omega⟩
  have q0 : win0_5.index t (0 : Fin 2) = 0 := congrFun ht 0
  have q1 : win0_5.index t (1 : Fin 2) = (i 1).val / 1024 := congrFun ht 1
  refine ⟨t, flush0_5 t, ?_⟩
  rw [mem_blk]
  intro a
  match a with
  | ⟨0, _⟩ => show win0_5.index t (0 : Fin 2) * 64 ≤ (i 0).val ∧ (i 0).val < win0_5.index t (0 : Fin 2) * 64 + 64; omega
  | ⟨1, _⟩ => show win0_5.index t (1 : Fin 2) * 1024 ≤ (i 1).val ∧ (i 1).val < win0_5.index t (1 : Fin 2) * 1024 + 1024; omega

/-- THE REGION'S OUTPUT ARRAY after the run: the scores laid out scores by tokens. -/
theorem region_out (c : Dev nD) : (dats m 0 c).arrAt 5 cfg0.N
    = scoresArrT (xArr m c) (w1Arr m c) (b1Arr m c) (w2Arr m c) (b2Arr m c) :=
  (dats m 0 c).arrAt_eq_of_cover 5 _ (fun t _ => flushed_eq m c t) covered

/-! ## The host operation after the region, and the run -/

/-- The program's result after the final transposition: the scores, tokens by scores. -/
theorem result_eq (c : Dev nD) :
    (Pipeline.afterTail₀ cfgs (dats m) 0 (V0 m) [hostOps1] c main_v4 : FVec Ideal S32768x64 .f32)
      = scoresArr (xArr m c) (w1Arr m c) (b1Arr m c) (w2Arr m c) (b2Arr m c) := by
  unfold Pipeline.afterTail₀
  show StableHlo.after hostOps1 _ (Proc.devRef .tc main_v4) = _
  after_results
  -- the region's array among the buffers the tail reads is what the region left in it
  have e : Pipeline.withArrays (cfgs 0).spec c (V0 m c) (fun w => (dats m 0 c).arrAt w (cfgs 0).N) (Proc.devRef .tc main_v3)
      = scoresArrT (xArr m c) (w1Arr m c) (b1Arr m c) (w2Arr m c) (b2Arr m c) :=
    (Pipeline.withArrays_arr spec0 launch0.win.arr_inj c _ _ 5).trans (region_out m c)
  rw [e]
  -- the transposition swaps (R, g) to (g, R)
  funext i
  obtain ⟨R, g, rfl⟩ : ∃ (R : Fin 32768) (g : Fin 64), i = ix2 R g := ⟨i 0, i 1, eq_ix2 i⟩
  exact transpose_ix2_apply _ transposes_S64x32768_S32768x64_1_0 R g

/-- THE RUN, READ: every weakly fair execution of the idealized kernel program terminates with its result array at the
    scores of the argument arrays as launched, and the argument arrays unchanged. The result is no array of the
    region: it is what the operation after the region leaves (`result_eq`); x and W1 are arrays of the region that no
    point writes back; b1, W2 and b2 are read only by host operations. -/
theorem run : θ_run defs (onTc (τ := τ) (main (F := Ideal))) ⟨m, fun _ => 0, ρ⟩ fun r => ∀ c : Dev nD,
      r.2.mem ((c.tc : Thread nD τ).loc main_v4) = scoresArr (xArr m c) (w1Arr m c) (b1Arr m c) (w2Arr m c) (b2Arr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨((h c).2 main_v4 (Pipeline.mem_restRefs_of main_v4 (by decide) (by decide))).trans (result_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c))),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c),
       ((h c).2 main_arg4 (Pipeline.mem_restRefs_of main_arg4 (by decide) (by decide))).trans (W_main_arg4 m (dats m) c)⟩)
    (run_main m ρ)

end Cert.KernelIdeal.RegionValue

end
-- ==== Proof.RefValue.lean ====
/-
  The reference computes the router's scores: read at a token R and a score g, its last operation's value is the
  output layer (the general product of the rectified hidden activations with W2, plus b2 laid out over the tokens) of
  the rectifier (the maximum with a zero laid out over the array) of the hidden layer (the general product of x with
  W1, plus b1 laid out over the tokens) of token R's row.
-/
import proofs.«109015_g8263517077508_cont_9to1_m_1080_10_alg».proof.Proof.Gen.ReferenceIdeal.Read
import proofs.«109015_g8263517077508_cont_9to1_m_1080_10_alg».proof.Proof.RouterSpec

noncomputable section

namespace Cert.ReferenceIdeal.RefValue

open Idealize.ShloMosaic Idealize.ShloMosaic.ValueIdx Cert.ReferenceIdeal Cert.ReferenceIdeal.Gen Cert.Dense Cert.Router

/-- The reference's result array is the array of scores. -/
theorem ref_scores (x0 : FVec Ideal S32768x4096 .f32) (x1 : FVec Ideal S4096x512 .f32) (x2 : FVec Ideal S512 .f32)
    (x3 : FVec Ideal S512x64 .f32) (x4 : FVec Ideal S64 .f32) :
    Cert.ReferenceIdeal.Read.val_main_v8 (F := Ideal) x0 x1 x2 x3 x4 = scoresArr x0 x1 x2 x3 x4 := by
  funext i
  obtain ⟨R, g, rfl⟩ : ∃ (R : Fin 32768) (g : Fin 64), i = ix2 R g := ⟨i 0, i 1, eq_ix2 i⟩
  rw [← Cert.ReferenceIdeal.Read.val_main_v8_eq]
  -- the output layer at (R, g), over the rectified hidden activations of token R
  refine (host_affine_apply dot_S32768x512_S512x64_S32768x64_1_0_0_1_n_n rfl rfl rfl rfl rfl rfl
    bcast_S64_S1x64_1 bcast_S1x64_S32768x64_0_1 _ x3 x4 R g).trans ?_
  show affine x3 x4 _ g = affine x3 x4 _ g
  congr 1
  funext j
  -- the rectifier at (R, j), then the hidden layer at (R, j)
  refine (host_relu_apply bcast_S_S32768x512 _ (ix2 R j)).trans ?_
  show max _ 0 = max _ 0
  congr 1
  exact host_affine_apply dot_S32768x4096_S4096x512_S32768x512_1_0_0_1_n_n rfl rfl rfl rfl rfl rfl
    bcast_S512_S1x512_1 bcast_S1x512_S32768x512_0_1 x0 x1 x2 R j

end Cert.ReferenceIdeal.RefValue

end
-- ==== Proof.lean ====
/-
  The router kernel against its reference:  scores = max(x · W1 + b1, 0) · W2 + b2  for 32768 tokens.

  Over the extended reals both programs compute, for token R and score g,
      (Σ_j max((Σ_k x_{R,k} · W1_{k,j}) + b1_j, 0) · W2_{j,g}) + b2_g ,
  with the same two sums over the same index sets (`Cert.Router.scores`). The kernel differs in layout only: it works
  on 1024 tokens per grid point, is handed W2 transposed and the biases as one-row matrices, and writes its result
  transposed, which a last host operation transposes back. The reference's run read one operation at a time gives the
  scores (`RefValue.ref_scores`); the kernel's 32 written blocks are blocks of one array, cover it, and the final
  transposition gives the same scores (`RegionValue.run`). No rearrangement of a sum is involved, so the inputs'
  finiteness is never used. The three frames: the two kernel programs' are the generated frame runs; the reference's is
  its run with the result dropped. The idealization rewrote no operation, so there is nothing to preserve.
-/
import proofs.«109015_g8263517077508_cont_9to1_m_1080_10_alg».proof.Defs
import proofs.«109015_g8263517077508_cont_9to1_m_1080_10_alg».proof.Proof.Gen.Kernel
import proofs.«109015_g8263517077508_cont_9to1_m_1080_10_alg».proof.Proof.Gen.Kernel.Skeleton
import proofs.«109015_g8263517077508_cont_9to1_m_1080_10_alg».proof.Proof.Gen.Kernel.Launch
import proofs.«109015_g8263517077508_cont_9to1_m_1080_10_alg».proof.Proof.Gen.Kernel.Points
import proofs.«109015_g8263517077508_cont_9to1_m_1080_10_alg».proof.Proof.Gen.Kernel.Frame
import proofs.«109015_g8263517077508_cont_9to1_m_1080_10_alg».proof.Proof.Gen.KernelIdeal
import proofs.«109015_g8263517077508_cont_9to1_m_1080_10_alg».proof.Proof.Gen.KernelIdeal.Skeleton
import proofs.«109015_g8263517077508_cont_9to1_m_1080_10_alg».proof.Proof.Gen.KernelIdeal.Launch
import proofs.«109015_g8263517077508_cont_9to1_m_1080_10_alg».proof.Proof.Gen.KernelIdeal.Points
import proofs.«109015_g8263517077508_cont_9to1_m_1080_10_alg».proof.Proof.Gen.KernelIdeal.Frame
import proofs.«109015_g8263517077508_cont_9to1_m_1080_10_alg».proof.Proof.Gen.ReferenceIdeal
import proofs.«109015_g8263517077508_cont_9to1_m_1080_10_alg».proof.Proof.Gen.ReferenceIdeal.Run
import proofs.«109015_g8263517077508_cont_9to1_m_1080_10_alg».proof.Proof.Gen.ReferenceIdeal.Read
import proofs.«109015_g8263517077508_cont_9to1_m_1080_10_alg».proof.Proof.Gen.Pre_finite_inputs
import proofs.«109015_g8263517077508_cont_9to1_m_1080_10_alg».proof.Proof.KernelValue
import proofs.«109015_g8263517077508_cont_9to1_m_1080_10_alg».proof.Proof.RefValue
import Idealize.ShloMosaic.Adequacy
import Idealize.ShloMosaic.Init

noncomputable section

namespace Cert.Proof

open Idealize.ShloMosaic Idealize.SL.Sem

/-- The word-level kernel program runs and keeps its arguments: the generated frame. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the five arguments both programs end with the array of scores of those arguments. -/
theorem algebraic : Cert.algebraic_KernelIdeal_ReferenceIdeal := by
  intro m ρ m' ρ' _ hagree
  refine ⟨_, Cert.KernelIdeal.RegionValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.ref_scores,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
